-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 62
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Product.lean ====
/- Region 0: the product h = x · w, block by block.
   Grid point t loads rows 5000·t … 5000·t + 4999 of x (a block of 5000 × 128) and the whole of w (128 × 64), rounds both
   to bf16 — no change over the extended reals — and stores their product into rows 5000·t … of the output array. Entry
   (r, q) of a block's product is the sum over k < 128 of x_block(r, k) · w(k, q): the same sum the reference's one
   whole dot_general takes at row 5000·t + r, so what point t writes back is block t of the reference's product read as
   one array, and the twenty blocks tile the 100000 rows. -/
import proofs.«141073_j62062277427822_1_alg».proof.Proof.Gen.KernelIdeal.Frame
import proofs.«141073_j62062277427822_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

/-! ## One block's product at an entry -/

/-- The left operand's row coordinate is the output's row. -/
theorem lhs_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted index. -/
theorem lhs_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- The right operand's row coordinate is the contracted index. -/
theorem rhs_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- The right operand's column coordinate is the output's column. -/
theorem rhs_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (j₀, k) of the x block: what entry j of the product multiplies at k. -/
abbrev xAt (j : S5000x64.Idx) (k : Fin 128) : S5000x128.Idx := fun a => match a with
  | ⟨0, _⟩ => ⟨(j 0).val, (j 0).isLt⟩
  | ⟨1, _⟩ => ⟨k.val, k.isLt⟩
/-- Entry (k, j₁) of w. -/
abbrev wAt (j : S5000x64.Idx) (k : Fin 128) : S128x64.Idx := fun a => match a with
  | ⟨0, _⟩ => ⟨k.val, k.isLt⟩
  | ⟨1, _⟩ => ⟨(j 1).val, (j 1).isLt⟩

/-- Over the extended reals the body's stored value at entry j is ∑ₖ x(j₀, k) · w(k, j₁): the two roundings to bf16 are the
    identity and the accumulator starts at zero. -/
theorem block_product (x0 : Vec Ideal S5000x128 .f32) (x1 : Vec Ideal S128x64 .f32) (j : S5000x64.Idx) :
    k0_pay1 (F := Ideal) x0 x1 j = ∑ k : Fin 128, x0 (xAt j k) * x1 (wAt j k) := by
  unfold k0_pay1
  dsimp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = xAt j k := funext fun a => Fin.ext (by
    match a with
    | ⟨0, _⟩ => exact lhs_row _ _
    | ⟨1, _⟩ => exact (lhs_col _ _).trans hk)
  have er : dot_S5000x128_S128x64_S5000x64_1_0_0_1_n_n.rhsIdx j ((ValueIdx.contrEquiv1 dot_S5000x128_S128x64_S5000x64_1_0_0_1_n_n 128 rfl rfl).symm k) = wAt j k := funext fun a => Fin.ext (by
    match a with
    | ⟨0, _⟩ => exact (rhs_row _ _).trans hk
    | ⟨1, _⟩ => exact rhs_col _ _)
  rw [el, er]
  rfl

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the twenty grid points: the x window and the output window sit at block row t, block
    column 0; the w window stays at block (0, 0). -/
theorem where_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product, as the reference states it. -/
abbrev whole (x : (⟨S100000x128, .f32⟩ : BufTy).Contents (Elt Ideal)) (w : (⟨S128x64, .f32⟩ : BufTy).Contents (Elt Ideal)) :
    (⟨S100000x64, .f32⟩ : BufTy).Contents (Elt Ideal) :=
  Cert.ReferenceIdeal.ReadP.val_main_v30 (F := Ideal) x w

/-- What point t writes back is block t of the whole product of the arrays the region finds. -/
theorem written_back (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x64) zeros]
  obtain ⟨e0, e1, e2, e3, e4, e5⟩ := where_blocks t
  funext j
  show k0_pay1 (F := Ideal) (iblk0 V c 0 t) (iblk0 V c 1 t) j = whole (V c main_arg0) (V c main_arg2) (((cfg0.win 2).blk t).view.emb j)
  refine (block_product (iblk0 V c 0 t) (iblk0 V c 1 t) j).trans ?_
  refine Eq.trans ?_ (Cert.ReferenceIdeal.ReadP.val_main_v30_apply (V c main_arg0) (V c main_arg2) (((cfg0.win 2).blk t).view.emb j)).symm
  refine Finset.sum_congr rfl fun k _ => ?_
  have h0 : ((cfg0.win 0).blk t).view.emb (xAt j k) = Cert.ReferenceIdeal.ReadP.lidx_main_v30 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (wAt j k) = Cert.ReferenceIdeal.ReadP.ridx_main_v30 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have hx : iblk0 V c 0 t (xAt j k) = V c main_arg0 (Cert.ReferenceIdeal.ReadP.lidx_main_v30 (((cfg0.win 2).blk t).view.emb j) k) :=
    congrArg (V c main_arg0) h0
  have hw : iblk0 V c 1 t (wAt j k) = V c main_arg2 (Cert.ReferenceIdeal.ReadP.ridx_main_v30 (((cfg0.win 2).blk t).view.emb j) k) :=
    congrArg (V c main_arg2) h1
  rw [hx, hw]

/-- An index of the output array is in point t's block iff each coordinate is in the block's range on its axis. -/
theorem in_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r of the output lies in the block of point r / 5000. -/
theorem tiled (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := where_blocks t
  have ht : t.val = (i 0).val / 5000 := rfl
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array holds the whole product of the arrays the region found. -/
theorem array_after (c : Dev nD) : (dat0 V c).arrAt 2 cfg0.N = whole (V c main_arg0) (V c main_arg2) :=
  (dat0 V c).arrAt_eq_of_cover 2 (whole (V c main_arg0) (V c main_arg2)) (fun t _ => written_back V c t) tiled

end Cert.KernelIdeal.Product

end
-- ==== Proof.Epilogue.lean ====
/- Region 1: the epilogue out = max(agg + bias, 0), block by block.
   Grid point t loads rows 5000·t … 5000·t + 4999 of agg (a block of 5000 × 64) and the whole bias row (64 entries), adds the
   bias to every row of the block and takes the maximum with zero; the result goes to the same rows of the output array.
   Entry (r, q) of the block is max(agg(5000·t + r, q) + bias(q), 0), which is the reference's broadcast, add and relu read
   at that entry, so what point t writes back is block t of one whole-array function and the twenty blocks tile the rows. -/
import proofs.«141073_j62062277427822_1_alg».proof.Proof.Gen.KernelIdeal.Frame
import proofs.«141073_j62062277427822_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.Pipeline (Dat)
open Idealize.ShloMosaic.ValueIdx

/-! ## One block's epilogue at an entry -/

/-- The bias entry that entry j of a block adds: its column. -/
abbrev biasAt (j : S5000x64.Idx) : S64.Idx := fun a => match a with
  | ⟨0, _⟩ => ⟨(j 1).val, (j 1).isLt⟩

/-- The body's stored value at entry j: the block's entry plus the bias of its column, cut below at zero. The two
    layout steps on the bias (a unit row axis added, then the row repeated 5000 times) read the bias at the column. -/
theorem block_epilogue (x0 : Vec Ideal S5000x64 .f32) (x1 : Vec Ideal S64 .f32) (j : S5000x64.Idx) :
    k1_pay1 (F := Ideal) x0 x1 j
      = FloatOps.maximumf (F := Ideal) (FloatOps.addf (F := Ideal) (x0 j) (x1 (biasAt j))) (FloatOps.ofBits .f32 0x00000000#32) := by
  obtain ⟨p, q, rfl⟩ : ∃ (p : Fin 5000) (q : Fin 64), j = ix2 p q := ⟨j 0, j 1, eq_ix2 j⟩
  have hb : biasAt (ix2 p q) = ix1 q := funext fun a => by match a with | ⟨0, _⟩ => rfl
  unfold k1_pay1
  rw [shapeCast_self]
  show FloatOps.maximumf (F := Ideal) (FloatOps.addf (F := Ideal) (x0 (ix2 p q))
      (broadcastTo S5000x64 (shapeCast S1x64 x1 shapeCasts_S64_S1x64) broadcasts_S1x64_S5000x64 (ix2 p q))) _ = _
  rw [broadcastTo_1b_ab_apply, shapeCast_a_1a_apply, hb]
  rfl

/-! ## From blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the twenty grid points: the agg window and the output window sit at block row t, block
    column 0; the bias window stays at block 0. -/
theorem where_blocks : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The epilogue of a whole array, as the reference states it: the bias broadcast over the rows, added, and the
    maximum with the zero array. -/
abbrev whole (a : FVec Ideal S100000x64 .f32) (b : FVec Ideal S64 .f32) : FVec Ideal S100000x64 .f32 :=
  maximumf (F := Ideal) (addf (F := Ideal) a (Cert.ReferenceIdeal.ReadP.val_main_v45 (F := Ideal) b)) (Cert.ReferenceIdeal.ReadP.val_main_call1_v0 (F := Ideal))

/-- The whole-array epilogue at an entry. -/
theorem whole_apply (a : FVec Ideal S100000x64 .f32) (b : FVec Ideal S64 .f32) (i : S100000x64.Idx) :
    whole a b i = FloatOps.maximumf (F := Ideal) (FloatOps.addf (F := Ideal) (a i) (b (Cert.ReferenceIdeal.ReadP.idx_main_v44 (Cert.ReferenceIdeal.ReadP.idx_main_v45 i)))) (FloatOps.ofBits .f32 0x00000000#32) := by
  show FloatOps.maximumf (F := Ideal) (FloatOps.addf (F := Ideal) (a i) (Cert.ReferenceIdeal.ReadP.val_main_v45 (F := Ideal) b i)) (Cert.ReferenceIdeal.ReadP.val_main_call1_v0 (F := Ideal) i) = _
  rw [Cert.ReferenceIdeal.ReadP.val_main_v45_apply, Cert.ReferenceIdeal.ReadP.val_main_v44_apply, Cert.ReferenceIdeal.ReadP.val_main_call1_v0_apply, Cert.ReferenceIdeal.ReadP.val_main_call1_cst_apply]

/-- What point t writes back is block t of the whole-array epilogue of the arrays the region finds. -/
theorem written_back (c : Dev nD) (t : Fin cfg1.N) :
    (dat1 V c).flushed 2 t = ((cfg1.win 2).blk t).view.read (Elt Ideal) (whole (V c main_v43) (V c main_arg3)) := by
  show (cfg1.win 2).cut (grid1.coords t) ((dat1 V c).after 2 t) = _
  rw [after1_2]
  unfold out1_2
  rw [View.canon_unit_zero zeros2]
  simp only [View.ld_unit_zero (S := S5000x64) zeros2, View.ld_unit_zero (S := S64) zeros1]
  obtain ⟨e0, e1, e2, e3, e4⟩ := where_blocks t
  funext j
  show k1_pay1 (F := Ideal) (iblk1 V c 0 t) (iblk1 V c 1 t) j = whole (V c main_v43) (V c main_arg3) (((cfg1.win 2).blk t).view.emb j)
  refine (block_epilogue (iblk1 V c 0 t) (iblk1 V c 1 t) j).trans ?_
  rw [whole_apply]
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (biasAt j) = Cert.ReferenceIdeal.ReadP.idx_main_v44 (Cert.ReferenceIdeal.ReadP.idx_main_v45 (((cfg1.win 2).blk t).view.emb j)) := by
    funext a; apply Fin.ext
    match a with
    | ⟨0, _⟩ => show win1_1.index t (0 : Fin 1) * 64 + 1 * (j 1).val = win1_2.index t (1 : Fin 2) * 64 + 1 * (j 1).val; omega
  have ha : iblk1 V c 0 t j = V c main_v43 (((cfg1.win 2).blk t).view.emb j) := congrArg (V c main_v43) h0
  have hb : iblk1 V c 1 t (biasAt j) = V c main_arg3 (Cert.ReferenceIdeal.ReadP.idx_main_v44 (Cert.ReferenceIdeal.ReadP.idx_main_v45 (((cfg1.win 2).blk t).view.emb j))) :=
    congrArg (V c main_arg3) h1
  rw [ha, hb]

/-- An index of the output array is in point t's block iff each coordinate is in the block's range on its axis. -/
theorem in_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v44).slice (win1_2.rect t)).set ↔ _
  rw [View.set_slice_whole, Rect.mem_set_unit]
  exact Iff.rfl

/-- Row r of the output lies in the block of point r / 5000. -/
theorem tiled (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4⟩ := where_blocks t
  have ht : t.val = (i 0).val / 5000 := rfl
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the output array holds the whole-array epilogue of the arrays the region found. -/
theorem array_after (c : Dev nD) : (dat1 V c).arrAt 2 cfg1.N = whole (V c main_v43) (V c main_arg3) :=
  (dat1 V c).arrAt_eq_of_cover 2 (whole (V c main_v43) (V c main_arg3)) (fun t _ => written_back V c t) tiled

end Cert.KernelIdeal.Epilogue

end
-- ==== Proof.HostSide.lean ====
/- The host operations of the kernel's program, read at the buffers the two kernel regions and the result depend on.
   Before region 0 the program builds, from the edge list alone, the source and destination index vectors with the self
   loops appended and the edge weights dinv[src] · dinv[dst], dinv = where(deg > 0, rsqrt(deg), 0) and deg the number of
   edges into a node; between the regions it gathers rows of h at the sources, scales them by the weights and adds them
   up at the destinations. These are operation for operation the reference's own stages, so each buffer is stated AS the
   reference's stage of the same name, stretch by stretch, and the aggregation as ONE function `aggOf` of the product h
   and the edge list — the reference applies the same function to its own product. -/
import proofs.«141073_j62062277427822_1_alg».proof.Proof.Gen.KernelIdeal.Frame
import proofs.«141073_j62062277427822_1_alg».proof.Proof.RefRead
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem

variable {F : FTy → Type} [FloatOps F]

/-- The aggregation: rows of `h` gathered at the sources, each scaled by its edge's weight, summed at the destinations
    into a zero array. Sources, destinations and weights are the reference's stages of the edge list. -/
def aggOf (h : (⟨Cert.ReferenceIdeal.S100000x64, .f32⟩ : BufTy).Contents (Elt F)) (ei : (⟨Cert.ReferenceIdeal.S2x1600000, .i32⟩ : BufTy).Contents (Elt F)) :
    (⟨Cert.ReferenceIdeal.S100000x64, .f32⟩ : BufTy).Contents (Elt F) :=
  Host.scatterAdd Cert.ReferenceIdeal.scatter_S100000x64_S1700000x1_S1700000x64_1_0_0_1 (Cert.ReferenceIdeal.ReadP.val_main_v41 (F := F)) (Cert.ReferenceIdeal.ReadP.val_main_v42 (F := F) ei)
    (mulf (Host.gather Cert.ReferenceIdeal.gather_S100000x64_S1700000x1_S1700000x64_1_0_n_n_0_1_164 h (Cert.ReferenceIdeal.ReadP.val_main_v36 (F := F) ei)) (Cert.ReferenceIdeal.ReadP.val_main_v39 (F := F) ei))

/-- The reference's aggregated array is `aggOf` of its product. -/
theorem ref_agg (x : (⟨Cert.ReferenceIdeal.S100000x128, .f32⟩ : BufTy).Contents (Elt F)) (ei : (⟨Cert.ReferenceIdeal.S2x1600000, .i32⟩ : BufTy).Contents (Elt F))
    (w : (⟨Cert.ReferenceIdeal.S128x64, .f32⟩ : BufTy).Contents (Elt F)) :
    Cert.ReferenceIdeal.ReadP.val_main_v43 (F := F) x ei w = aggOf (Cert.ReferenceIdeal.ReadP.val_main_v30 (F := F) x w) ei := rfl

variable (m : (ℓ : Loc nD τ sig) → Buf (Elt F) ℓ) (ρ : Dev nD → PrngReg)

/-! ## After the first stretch: indices, degrees -/

/-- The source indices (edge sources, then 0 … 99999). -/
theorem first_src (c : Dev nD) :
    W1 m ρ c (Proc.devRef .tc main_v3) = Cert.ReferenceIdeal.ReadP.val_main_v3 (F := F) (m ((c.tc : Thread nD τ).loc main_arg1)) := by
  show StableHlo.after hostOps0 (W0 m ρ c) (Proc.devRef .tc main_v3) = _
  dsimp only [hostOps0]
  after_results
  rfl

/-- The destination indices (edge destinations, then 0 … 99999). -/
theorem first_dst (c : Dev nD) :
    W1 m ρ c (Proc.devRef .tc main_v6) = Cert.ReferenceIdeal.ReadP.val_main_v6 (F := F) (m ((c.tc : Thread nD τ).loc main_arg1)) := by
  show StableHlo.after hostOps0 (W0 m ρ c) (Proc.devRef .tc main_v6) = _
  dsimp only [hostOps0]
  after_results
  rfl

/-- Where a node's degree is positive. -/
theorem first_pos (c : Dev nD) :
    W1 m ρ c (Proc.devRef .tc main_v12) = Cert.ReferenceIdeal.ReadP.val_main_v12 (F := F) (m ((c.tc : Thread nD τ).loc main_arg1)) := by
  show StableHlo.after hostOps0 (W0 m ρ c) (Proc.devRef .tc main_v12) = _
  dsimp only [hostOps0]
  after_results
  rfl

/-- The reciprocal square root of the degrees. -/
theorem first_rsqrt (c : Dev nD) :
    W1 m ρ c (Proc.devRef .tc main_v13) = Cert.ReferenceIdeal.ReadP.val_main_v13 (F := F) (m ((c.tc : Thread nD τ).loc main_arg1)) := by
  show StableHlo.after hostOps0 (W0 m ρ c) (Proc.devRef .tc main_v13) = _
  dsimp only [hostOps0]
  after_results
  rfl

/-- The zero the degree-less nodes get. -/
theorem first_zero (c : Dev nD) :
    W1 m ρ c (Proc.devRef .tc main_cst_2) = Cert.ReferenceIdeal.ReadP.val_main_cst_2 (F := F) := by
  show StableHlo.after hostOps0 (W0 m ρ c) (Proc.devRef .tc main_cst_2) = _
  dsimp only [hostOps0]
  after_results
  rfl

/-! ## After the selection dinv = where(deg > 0, rsqrt(deg), 0) -/

/-- dinv. -/
theorem second_dinv (c : Dev nD) :
    W2 m ρ c (Proc.devRef .tc main_v14) = Cert.ReferenceIdeal.ReadP.val_main_v14 (F := F) (m ((c.tc : Thread nD τ).loc main_arg1)) := by
  show StableHlo.after hostOps0_1 (W1 m ρ c) (Proc.devRef .tc main_v14) = _
  have h12 := first_pos m ρ c
  have h13 := first_rsqrt m ρ c
  have hz := first_zero m ρ c
  generalize W1 m ρ c = W1c at h12 h13 hz ⊢
  dsimp only [hostOps0_1]
  after_results
  rw [h12, h13, hz]
  rfl

/-- The selection writes neither index vector. -/
theorem second_src (c : Dev nD) :
    W2 m ρ c (Proc.devRef .tc main_v3) = Cert.ReferenceIdeal.ReadP.val_main_v3 (F := F) (m ((c.tc : Thread nD τ).loc main_arg1)) := by
  show StableHlo.after hostOps0_1 (W1 m ρ c) (Proc.devRef .tc main_v3) = _
  have h := first_src m ρ c
  generalize W1 m ρ c = W1c at h ⊢
  dsimp only [hostOps0_1]
  after_results
  exact h
theorem second_dst (c : Dev nD) :
    W2 m ρ c (Proc.devRef .tc main_v6) = Cert.ReferenceIdeal.ReadP.val_main_v6 (F := F) (m ((c.tc : Thread nD τ).loc main_arg1)) := by
  show StableHlo.after hostOps0_1 (W1 m ρ c) (Proc.devRef .tc main_v6) = _
  have h := first_dst m ρ c
  generalize W1 m ρ c = W1c at h ⊢
  dsimp only [hostOps0_1]
  after_results
  exact h

/-! ## At region 0's entry -/

/-- The source indices are still there. -/
theorem entry_src (c : Dev nD) :
    W3 m ρ c (Proc.devRef .tc main_v3) = Cert.ReferenceIdeal.ReadP.val_main_v3 (F := F) (m ((c.tc : Thread nD τ).loc main_arg1)) := by
  show StableHlo.after hostOps0_2 (W2 m ρ c) (Proc.devRef .tc main_v3) = _
  have h := second_src m ρ c
  generalize W2 m ρ c = W2c at h ⊢
  dsimp only [hostOps0_2]
  after_results
  exact h

/-- So are the destination indices. -/
theorem entry_dst (c : Dev nD) :
    W3 m ρ c (Proc.devRef .tc main_v6) = Cert.ReferenceIdeal.ReadP.val_main_v6 (F := F) (m ((c.tc : Thread nD τ).loc main_arg1)) := by
  show StableHlo.after hostOps0_2 (W2 m ρ c) (Proc.devRef .tc main_v6) = _
  have h := second_dst m ρ c
  generalize W2 m ρ c = W2c at h ⊢
  dsimp only [hostOps0_2]
  after_results
  exact h

/-- The edge weights dinv[src] · dinv[dst] (negative indices wrapped once, as jnp's indexing does). -/
theorem entry_weight (c : Dev nD) :
    W3 m ρ c (Proc.devRef .tc main_v29) = Cert.ReferenceIdeal.ReadP.val_main_v29 (F := F) (m ((c.tc : Thread nD τ).loc main_arg1)) := by
  show StableHlo.after hostOps0_2 (W2 m ρ c) (Proc.devRef .tc main_v29) = _
  have hd := second_dinv m ρ c
  have hs := second_src m ρ c
  have ht := second_dst m ρ c
  generalize W2 m ρ c = W2c at hd hs ht ⊢
  dsimp only [hostOps0_2]
  after_results_simp
  rw [hd, hs, ht]
  rfl

/-- No host operation writes x. -/
theorem entry_x (c : Dev nD) : V3 m ρ c main_arg0 = m ((c.tc : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

/-- No host operation writes w. -/
theorem entry_w (c : Dev nD) : V3 m ρ c main_arg2 = m ((c.tc : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

/-- Nor the bias. -/
theorem entry_bias0 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results

/-! ## At region 1's entry -/

/-- The bias is still as launched: region 0 and the operations after it leave it alone. -/
theorem entry_bias (c : Dev nD) : V5 m ρ c main_arg3 = m ((c.tc : Thread nD τ).loc main_arg3) := by
  show StableHlo.after hostOps1 (W4 m ρ c) (Proc.devRef .tc main_arg3) = _
  have h := (W4_of_ne m ρ c main_arg3 (by decide)).trans (entry_bias0 m ρ c)
  generalize W4 m ρ c = W4c at h ⊢
  dsimp only [hostOps1]
  after_results
  exact h

/-- The aggregated array is `aggOf` of what region 0 left in its output array, and the edge list. -/
theorem entry_agg (c : Dev nD) :
    V5 m ρ c main_v43 = aggOf (W4 m ρ c (Proc.devRef .tc main_v30)) (m ((c.tc : Thread nD τ).loc main_arg1)) := by
  show StableHlo.after hostOps1 (W4 m ρ c) (Proc.devRef .tc main_v43) = _
  have hs := (W4_of_ne m ρ c main_v3 (by decide)).trans (entry_src m ρ c)
  have ht := (W4_of_ne m ρ c main_v6 (by decide)).trans (entry_dst m ρ c)
  have hn := (W4_of_ne m ρ c main_v29 (by decide)).trans (entry_weight m ρ c)
  generalize W4 m ρ c = W4c at hs ht hn ⊢
  dsimp only [hostOps1]
  after_results_simp
  rw [hs, ht, hn]
  rfl

end Cert.KernelIdeal.HostSide

end
-- ==== Proof.Result.lean ====
/- The kernel program's result array as ONE function of the four argument arrays: the reference's own last stage.
   Read backwards from the result: region 1 leaves max(agg + bias, 0) of the arrays it finds; the aggregated array it finds
   is the aggregation of what region 0 left in its output array; region 0 leaves the product of the arrays it finds; and
   those are x and w as launched. The reference computes the product with one dot_general and then applies the same
   aggregation and the same epilogue. -/
import proofs.«141073_j62062277427822_1_alg».proof.Proof.Product
import proofs.«141073_j62062277427822_1_alg».proof.Proof.Epilogue
import proofs.«141073_j62062277427822_1_alg».proof.Proof.HostSide

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last boundary's contents at the result buffer are the reference's last stage of the launch contents. -/
theorem result_array (c : Dev nD) :
    W6 m ρ c (Proc.devRef .tc main_v44)
      = Cert.ReferenceIdeal.ReadP.val_main_v47 (F := Ideal) (m ((c.tc : Thread nD τ).loc main_arg0)) (m ((c.tc : Thread nD τ).loc main_arg1))
          (m ((c.tc : Thread nD τ).loc main_arg2)) (m ((c.tc : Thread nD τ).loc main_arg3)) :=
  calc W6 m ρ c (Proc.devRef .tc main_v44)
      = (dat1 (V5 m ρ) c).arrAt 2 cfg1.N := W6_arr m ρ c 2
    _ = Epilogue.whole (V5 m ρ c main_v43) (V5 m ρ c main_arg3) := Epilogue.array_after (V5 m ρ) c
    _ = Epilogue.whole (HostSide.aggOf (W4 m ρ c (Proc.devRef .tc main_v30)) (m ((c.tc : Thread nD τ).loc main_arg1)))
          (m ((c.tc : Thread nD τ).loc main_arg3)) := by
        rw [HostSide.entry_agg m ρ c, HostSide.entry_bias m ρ c]
    _ = Epilogue.whole (HostSide.aggOf (Product.whole (V3 m ρ c main_arg0) (V3 m ρ c main_arg2)) (m ((c.tc : Thread nD τ).loc main_arg1)))
          (m ((c.tc : Thread nD τ).loc main_arg3)) := by
        rw [show W4 m ρ c (Proc.devRef .tc main_v30) = Product.whole (V3 m ρ c main_arg0) (V3 m ρ c main_arg2) from
          (W4_arr m ρ c 2).trans (Product.array_after (V3 m ρ) c)]
    _ = Epilogue.whole (HostSide.aggOf (Product.whole (m ((c.tc : Thread nD τ).loc main_arg0)) (m ((c.tc : Thread nD τ).loc main_arg2)))
          (m ((c.tc : Thread nD τ).loc main_arg1))) (m ((c.tc : Thread nD τ).loc main_arg3)) := by
        rw [HostSide.entry_x m ρ c, HostSide.entry_w m ρ c]
    _ = _ := rfl

end Cert.KernelIdeal.Result

end
-- ==== Proof.lean ====
/- GCN layer: out = relu(Â · (x · w) + bias), Â the symmetrically normalised adjacency with self loops, built on the host
   from the edge list by the same operations in both programs. The kernel program computes x · w in a pallas_call over
   twenty blocks of 5000 rows (operands rounded to bf16, which is the identity over the extended reals, accumulated from
   zero) and the final max(· + bias, 0) in a second pallas_call over the same twenty blocks; the reference computes the
   product with one dot_general and the epilogue with a broadcast, an add and a maximum.
   Both programs end with the result at ONE function of the arguments, the reference's last stage: for the kernel program
   by Proof/Result.lean (the two regions' arrays, each the twenty blocks of one whole-array function, and the host
   operations between them read as the reference's stages); for the reference by its run. No law of the extended reals
   beyond reading both sums over the same index set is needed, so finiteness of the inputs is never used.
   The ideal pass rewrote nothing, so `preserves` is trivial. -/
import proofs.«141073_j62062277427822_1_alg».proof.Defs
import proofs.«141073_j62062277427822_1_alg».proof.Proof.Gen.Kernel
import proofs.«141073_j62062277427822_1_alg».proof.Proof.Gen.Kernel.Skeleton
import proofs.«141073_j62062277427822_1_alg».proof.Proof.Gen.Kernel.Launch
import proofs.«141073_j62062277427822_1_alg».proof.Proof.Gen.Kernel.Points
import proofs.«141073_j62062277427822_1_alg».proof.Proof.Gen.Kernel.Frame
import proofs.«141073_j62062277427822_1_alg».proof.Proof.Gen.KernelIdeal
import proofs.«141073_j62062277427822_1_alg».proof.Proof.Gen.KernelIdeal.Skeleton
import proofs.«141073_j62062277427822_1_alg».proof.Proof.Gen.KernelIdeal.Launch
import proofs.«141073_j62062277427822_1_alg».proof.Proof.Gen.KernelIdeal.Points
import proofs.«141073_j62062277427822_1_alg».proof.Proof.Gen.KernelIdeal.Frame
import proofs.«141073_j62062277427822_1_alg».proof.Proof.Gen.ReferenceIdeal
import proofs.«141073_j62062277427822_1_alg».proof.Proof.Gen.Pre_finite_inputs
import proofs.«141073_j62062277427822_1_alg».proof.Proof.RefRun
import proofs.«141073_j62062277427822_1_alg».proof.Proof.RefRead
import proofs.«141073_j62062277427822_1_alg».proof.Proof.KernelRun
import proofs.«141073_j62062277427822_1_alg».proof.Proof.Result
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result at the reference's last stage of the (agreeing) arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Result.result_array m ρ c), (h c).2⟩)
    (Cert.KernelIdeal.GenRun.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
